-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x8192 : Shape := ⟨2, ![2000, 8192]⟩
abbrev S2000 : Shape := ⟨1, ![2000]⟩
abbrev S8192x2000 : Shape := ⟨2, ![8192, 2000]⟩
abbrev S_ : Shape := ⟨0, ![]⟩

class Facts : Prop where
  bcast_S_S2000x8192 : S_.BroadcastsInDim S2000x8192 (![] : Fin 0 → Fin S2000x8192.rank)
  reducesTo_S2000x8192_S_d0_1 : S2000x8192.ReducesTo [0, 1] S_
  h_S_ : 0 < S_.numel
  bcast_S_S2000 : S_.BroadcastsInDim S2000 (![] : Fin 0 → Fin S2000.rank)
  reducesTo_S2000_S_d0 : S2000.ReducesTo [0] S_
  bcast_S_S8192x2000 : S_.BroadcastsInDim S8192x2000 (![] : Fin 0 → Fin S8192x2000.rank)
  reducesTo_S8192x2000_S_d0_1 : S8192x2000.ReducesTo [0, 1] S_

variable [Facts]

def fn {F : FTy → Type} [FloatOps F] (main_arg0 : FVec F S2000x8192 .f32) (main_arg1 : FVec F S2000 .f32) (main_arg2 : FVec F S8192x2000 .f32) : IVec S_ 1 :=
  let main_v0 : FVec F S2000x8192 .f32 := Host.absf main_arg0
  let main_cst : FVec F S_ .f32 := constant S_ .f32 0x7F800000#32
  let main_v1 : FVec F S2000x8192 .f32 := broadcastInDim S2000x8192 ![] bcast_S_S2000x8192 main_cst
  let main_v2 : IVec S2000x8192 1 := cmpf .olt main_v0 main_v1
  let main_c : IVec S_ 1 := constantI S_ 1 1#1
  let main_v3 : IVec S_ 1 := (fun x v => Host.reduce IntOp.andi x v reducesTo_S2000x8192_S_d0_1 h_S_) main_v2 main_c
  let main_v4 : FVec F S2000 .f32 := Host.absf main_arg1
  let main_cst_0 : FVec F S_ .f32 := constant S_ .f32 0x7F800000#32
  let main_v5 : FVec F S2000 .f32 := broadcastInDim S2000 ![] bcast_S_S2000 main_cst_0
  let main_v6 : IVec S2000 1 := cmpf .olt main_v4 main_v5
  let main_c_1 : IVec S_ 1 := constantI S_ 1 1#1
  let main_v7 : IVec S_ 1 := (fun x v => Host.reduce IntOp.andi x v reducesTo_S2000_S_d0 h_S_) main_v6 main_c_1
  let main_v8 : IVec S_ 1 := andi main_v3 main_v7
  let main_v9 : FVec F S8192x2000 .f32 := Host.absf main_arg2
  let main_cst_2 : FVec F S_ .f32 := constant S_ .f32 0x7F800000#32
  let main_v10 : FVec F S8192x2000 .f32 := broadcastInDim S8192x2000 ![] bcast_S_S8192x2000 main_cst_2
  let main_v11 : IVec S8192x2000 1 := cmpf .olt main_v9 main_v10
  let main_c_3 : IVec S_ 1 := constantI S_ 1 1#1
  let main_v12 : IVec S_ 1 := (fun x v => Host.reduce IntOp.andi x v reducesTo_S8192x2000_S_d0_1 h_S_) main_v11 main_c_3
  let main_v13 : IVec S_ 1 := andi main_v8 main_v12
  main_v13
-- ==== Kernel.lean ====
abbrev S2000x8192 : Shape := ⟨2, ![2000, 8192]⟩
abbrev S2000 : Shape := ⟨1, ![2000]⟩
abbrev S8192x2000 : Shape := ⟨2, ![8192, 2000]⟩
abbrev S1x2000 : Shape := ⟨2, ![1, 2000]⟩
abbrev S2000x2000 : Shape := ⟨2, ![2000, 2000]⟩
abbrev S400x1024 : Shape := ⟨2, ![400, 1024]⟩
abbrev S1024x2000 : Shape := ⟨2, ![1024, 2000]⟩
abbrev S400x2000 : Shape := ⟨2, ![400, 2000]⟩

abbrev nBuf : Space → Nat
  | .hbm => 5
  | .vmem => 8
  | .smem => 0
  | _ => 0

abbrev bufTy : (tb : Table) → Fin (tcTables nBuf tb) → BufTy
  | .hbm, ⟨0, _⟩ => ⟨S2000x8192, .f32⟩
  | .hbm, ⟨1, _⟩ => ⟨S2000, .f32⟩
  | .hbm, ⟨2, _⟩ => ⟨S8192x2000, .f32⟩
  | .hbm, ⟨3, _⟩ => ⟨S1x2000, .f32⟩
  | .hbm, ⟨4, _⟩ => ⟨S2000x2000, .f32⟩
  | .local _ .vmem, ⟨0, _⟩ => ⟨S400x1024, .f32⟩
  | .local _ .vmem, ⟨1, _⟩ => ⟨S400x1024, .f32⟩
  | .local _ .vmem, ⟨2, _⟩ => ⟨S1024x2000, .f32⟩
  | .local _ .vmem, ⟨3, _⟩ => ⟨S1024x2000, .f32⟩
  | .local _ .vmem, ⟨4, _⟩ => ⟨S1x2000, .f32⟩
  | .local _ .vmem, ⟨5, _⟩ => ⟨S400x2000, .f32⟩
  | .local _ .vmem, ⟨6, _⟩ => ⟨S400x2000, .f32⟩
  | .local _ .vmem, ⟨7, _⟩ => ⟨S400x2000, .f32⟩
  | _, _ => ⟨S2000x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![5, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S400x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S400x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2000_S1x2000 : S2000.ShapeCasts S1x2000
  inb_S400x2000_S400x2000_0_0 : ∀ a, (![0, 0] : Fin 2 → Nat) a + S400x2000.size a ≤ S400x2000.size a
  h_S400x2000 : 0 < S400x2000.numel
  shapeCasts_S400x2000_S400x2000 : S400x2000.ShapeCasts S400x2000
  inb_S400x1024_S400x1024_0_0 : ∀ a, (![0, 0] : Fin 2 → Nat) a + S400x1024.size a ≤ S400x1024.size a
  h_S400x1024 : 0 < S400x1024.numel
  bitsLt_bf16_f32 : FTy.bits .bf16 < FTy.bits .f32
  inb_S1024x2000_S1024x2000_0_0 : ∀ a, (![0, 0] : Fin 2 → Nat) a + S1024x2000.size a ≤ S1024x2000.size a
  h_S1024x2000 : 0 < S1024x2000.numel
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S400x2000 : S1x2000.Broadcasts S400x2000
  dot_S400x1024_S1024x2000_S400x2000_1_0_0_1_n_n_wf : DotDims.WF S400x1024 S1024x2000 S400x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1024.size a ≤ S2000x8192.size a
  hwx0_0 : ∀ i : grid0.Coords, EltTy.bits .f32 = 32 ∨ (Rect.block (s := S2000x8192) S400x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2000.size a ≤ S8192x2000.size a
  hwx0_1 : ∀ i : grid0.Coords, EltTy.bits .f32 = 32 ∨ (Rect.block (s := S8192x2000) S1024x2000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2000.size a ≤ S1x2000.size a
  hwx0_2 : ∀ i : grid0.Coords, EltTy.bits .f32 = 32 ∨ (Rect.block (s := S1x2000) S1x2000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x2000.size a ≤ S2000x2000.size a
  hwx0_3 : ∀ i : grid0.Coords, EltTy.bits .f32 = 32 ∨ (Rect.block (s := S2000x2000) S400x2000.size (cc0_transform_3 i) (hinb0_3 i)).WholeWords (EltTy.packing .f32)

variable [Facts₀]

def dot_S400x1024_S1024x2000_S400x2000_1_0_0_1_n_n : DotDims S400x1024 S1024x2000 S400x2000 where
  lhsContracting := [1]
  rhsContracting := [0]
  lhsNonContracting := [0]
  rhsNonContracting := [1]
  lhsBatch := []
  rhsBatch := []
  wf := dot_S400x1024_S1024x2000_S400x2000_1_0_0_1_n_n_wf

abbrev win0_0 : Pipeline.Window sig grid0 :=
  Pipeline.Window.ofSpec (Memref.whole main_arg0) S400x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x2000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2000x8192 : Shape := ⟨2, ![2000, 8192]⟩
abbrev S2000 : Shape := ⟨1, ![2000]⟩
abbrev S8192x2000 : Shape := ⟨2, ![8192, 2000]⟩
abbrev S2000x2000 : Shape := ⟨2, ![2000, 2000]⟩
abbrev S1x2000 : Shape := ⟨2, ![1, 2000]⟩

abbrev nBuf : Space → Nat
  | .hbm => 7
  | .vmem => 0
  | .smem => 0
  | _ => 0

abbrev bufTy : (tb : Table) → Fin (tcTables nBuf tb) → BufTy
  | .hbm, ⟨0, _⟩ => ⟨S2000x8192, .f32⟩
  | .hbm, ⟨1, _⟩ => ⟨S2000, .f32⟩
  | .hbm, ⟨2, _⟩ => ⟨S8192x2000, .f32⟩
  | .hbm, ⟨3, _⟩ => ⟨S2000x2000, .f32⟩
  | .hbm, ⟨4, _⟩ => ⟨S1x2000, .f32⟩
  | .hbm, ⟨5, _⟩ => ⟨S2000x2000, .f32⟩
  | .hbm, ⟨6, _⟩ => ⟨S2000x2000, .f32⟩
  | _, _ => ⟨S2000x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S2000_S1x2000_1 : S2000.BroadcastsInDim S1x2000 (![1] : Fin 1 → Fin S1x2000.rank)
  bcast_S1x2000_S2000x2000_0_1 : S1x2000.BroadcastsInDim S2000x2000 (![0, 1] : Fin 2 → Fin S2000x2000.rank)
  dot_S2000x8192_S8192x2000_S2000x2000_1_0_0_1_n_n_wf : DotDims.WF S2000x8192 S8192x2000 S2000x2000 [1] [0] [0] [1] [] []

variable [Facts₀]

def dot_S2000x8192_S8192x2000_S2000x2000_1_0_0_1_n_n : DotDims S2000x8192 S8192x2000 S2000x2000 where
  lhsContracting := [1]
  rhsContracting := [0]
  lhsNonContracting := [0]
  rhsNonContracting := [1]
  lhsBatch := []
  rhsBatch := []
  wf := dot_S2000x8192_S8192x2000_S2000x2000_1_0_0_1_n_n_wf

class Facts : Prop extends Facts₀ where

variable [Facts]
-- ==== Proof.Spec.lean ====
/-
  The function both programs compute, stated once over the whole arrays.

  For a weight matrix `w` (2000 × 8192), a bias vector `b` (2000) and a matrix `x` (8192 × 2000) the result at
  row `r`, column `c` is the inner product of row `r` of `w` with column `c` of `x`, plus `b c` (the bias is
  added along the LAST axis).  On the extended reals addition is commutative and associative, so the inner product
  over the 8192 contraction coordinates may be grouped into eight consecutive stretches of 1024: `sum_split`.
-/
import Idealize.ShloMosaic.PureOps.Ideal
import Idealize.ShloMosaic.Lib.ValueIdx

noncomputable section

open scoped BigOperators

namespace Cert.Spec

open Idealize.ShloMosaic Idealize.ShloMosaic.ValueIdx

/-- The result array: `(w · x) r c + b c`. -/
def G (w : (⟨2, ![2000, 8192]⟩ : Shape).Idx → EReal) (b : (⟨1, ![2000]⟩ : Shape).Idx → EReal)
    (x : (⟨2, ![8192, 2000]⟩ : Shape).Idx → EReal) : (⟨2, ![2000, 2000]⟩ : Shape).Idx → EReal :=
  fun i => (∑ k : Fin 8192, w (ix2 (i 0) k) * x (ix2 k (i 1))) + b (ix1 (i 1))

/-- The contraction coordinate `1024 · q + r` of stretch `q`, offset `r`. -/
def kAt (q : Fin 8) (r : Fin 1024) : Fin 8192 := ⟨1024 * q.val + r.val, by have := q.isLt; have := r.isLt; omega⟩

/-- A sum over the 8192 contraction coordinates is the sum over the eight stretches of the sums inside each
    stretch: only commutativity and associativity of addition are used, so it holds in any commutative monoid,
    the extended reals among them. -/
theorem sum_split {M : Type*} [AddCommMonoid M] (f : Fin 8192 → M) :
    ∑ k : Fin 8192, f k = ∑ q : Fin 8, ∑ r : Fin 1024, f (kAt q r) := by
  rw [← Fintype.sum_prod_type']
  refine (Fintype.sum_equiv (finProdFinEquiv (m := 8) (n := 1024)) _ _ fun p => ?_).symm
  congr 1
  apply Fin.ext
  simp only [kAt, finProdFinEquiv_apply_val]
  omega

/-- A sum over `Finset.range 8` of a function of the stretch number is the sum over `Fin 8`. -/
theorem sum_range_eight {M : Type*} [AddCommMonoid M] (f : ℕ → M) :
    ∑ s ∈ Finset.range 8, f s = ∑ q : Fin 8, f q.val :=
  (Fin.sum_univ_eq_sum_range f 8).symm

end Cert.Spec

end
-- ==== Proof.Payload.lean ====
/-
  The body's three stored values at the ideal instance, read at an index.

  The body works on a 400 × 2000 accumulator block.  At the first contraction step it stores zeros into it; at
  every step it adds to it the product of a 400 × 1024 block of the weights with a 1024 × 2000 block of the other
  matrix (the change of float format on the two factors is the identity on the extended reals, and the product is
  taken into a zero block, so it is the plain inner product over the 1024 coordinates of the step); at the last
  step it stores the accumulator plus the bias row, the row repeated down the 400 rows.
-/
import proofs.«176241_j70317204570841_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The block the reset stores is zero at every index. -/
theorem reset_apply (i : S400x2000.Idx) : k0_pay1 (F := Ideal) i = 0 := by
  unfold k0_pay1
  rw [shapeCast_self]
  exact Ideal.ofBits_zero_f32

/-- The step's record of dimensions: rows of the left block against columns of the right, one contracted axis. -/
abbrev stepDims : DotDims S400x1024 S1024x2000 S400x2000 := dot_S400x1024_S1024x2000_S400x2000_1_0_0_1_n_n

theorem lhs_dot_S400x1024_S1024x2000_S400x2000_1_0_0_1_n_n_0 (i : S400x2000.Idx) (q : dot_S400x1024_S1024x2000_S400x2000_1_0_0_1_n_n.contr.Idx) :
    (dot_S400x1024_S1024x2000_S400x2000_1_0_0_1_n_n.lhsIdx i q 0).val = (i 0).val := by
  unfold DotDims.lhsIdx
  rw [dif_neg (show ¬(0 : Fin S400x1024.rank) ∈ dot_S400x1024_S1024x2000_S400x2000_1_0_0_1_n_n.lhsBatch by decide), dif_pos (show (0 : Fin S400x1024.rank) ∈ dot_S400x1024_S1024x2000_S400x2000_1_0_0_1_n_n.lhsNonContracting by decide)]
  rfl
theorem lhs_dot_S400x1024_S1024x2000_S400x2000_1_0_0_1_n_n_1 (i : S400x2000.Idx) (q : dot_S400x1024_S1024x2000_S400x2000_1_0_0_1_n_n.contr.Idx) :
    (dot_S400x1024_S1024x2000_S400x2000_1_0_0_1_n_n.lhsIdx i q 1).val = (q ⟨0, by decide⟩).val :=
  dot_S400x1024_S1024x2000_S400x2000_1_0_0_1_n_n.lhsIdx_val_of_single rfl i q
theorem rhs_dot_S400x1024_S1024x2000_S400x2000_1_0_0_1_n_n_0 (i : S400x2000.Idx) (q : dot_S400x1024_S1024x2000_S400x2000_1_0_0_1_n_n.contr.Idx) :
    (dot_S400x1024_S1024x2000_S400x2000_1_0_0_1_n_n.rhsIdx i q 0).val = (q ⟨0, by decide⟩).val :=
  dot_S400x1024_S1024x2000_S400x2000_1_0_0_1_n_n.rhsIdx_val_of_single rfl i q
theorem rhs_dot_S400x1024_S1024x2000_S400x2000_1_0_0_1_n_n_1 (i : S400x2000.Idx) (q : dot_S400x1024_S1024x2000_S400x2000_1_0_0_1_n_n.contr.Idx) :
    (dot_S400x1024_S1024x2000_S400x2000_1_0_0_1_n_n.rhsIdx i q 1).val = (i 1).val := by
  unfold DotDims.rhsIdx
  rw [dif_neg (show ¬(1 : Fin S1024x2000.rank) ∈ dot_S400x1024_S1024x2000_S400x2000_1_0_0_1_n_n.rhsBatch by decide), dif_pos (show (1 : Fin S1024x2000.rank) ∈ dot_S400x1024_S1024x2000_S400x2000_1_0_0_1_n_n.rhsNonContracting by decide)]
  rfl

/-- The product of a left block with a right block into the zero block, at row `p`, column `q`: the inner product of
    the left block's row `p` with the right block's column `q`. -/
theorem product_apply (a : FVec Ideal S400x1024 .bf16) (b : FVec Ideal S1024x2000 .bf16) (p : Fin 400) (q : Fin 2000) :
    matmul dot_S400x1024_S1024x2000_S400x2000_1_0_0_1_n_n none a b (constant S400x2000 .f32 0x00000000#32) (ix2 p q)
      = ∑ k : Fin 1024, a (ix2 p k) * b (ix2 k q) := by
  simp only [matmul]
  rw [Ideal.matmul_constant_zero_apply, ← Equiv.sum_comp (ValueIdx.contrEquiv1 dot_S400x1024_S1024x2000_S400x2000_1_0_0_1_n_n 1024 rfl rfl).symm]
  refine Finset.sum_congr rfl fun k _ => ?_
  have hk := ValueIdx.contrEquiv1_symm_val dot_S400x1024_S1024x2000_S400x2000_1_0_0_1_n_n 1024 rfl rfl k
  have el : dot_S400x1024_S1024x2000_S400x2000_1_0_0_1_n_n.lhsIdx (ix2 p q) ((ValueIdx.contrEquiv1 dot_S400x1024_S1024x2000_S400x2000_1_0_0_1_n_n 1024 rfl rfl).symm k) = ix2 p k := funext fun a => Fin.ext (by
    match a with
    | ⟨0, _⟩ => exact lhs_dot_S400x1024_S1024x2000_S400x2000_1_0_0_1_n_n_0 _ _
    | ⟨1, _⟩ => exact (lhs_dot_S400x1024_S1024x2000_S400x2000_1_0_0_1_n_n_1 _ _).trans hk)
  have er : dot_S400x1024_S1024x2000_S400x2000_1_0_0_1_n_n.rhsIdx (ix2 p q) ((ValueIdx.contrEquiv1 dot_S400x1024_S1024x2000_S400x2000_1_0_0_1_n_n 1024 rfl rfl).symm k) = ix2 k q := funext fun a => Fin.ext (by
    match a with
    | ⟨0, _⟩ => exact (rhs_dot_S400x1024_S1024x2000_S400x2000_1_0_0_1_n_n_0 _ _).trans hk
    | ⟨1, _⟩ => exact rhs_dot_S400x1024_S1024x2000_S400x2000_1_0_0_1_n_n_1 _ _)
  rw [el, er]

/-- One step: the accumulator plus the inner product of the step's blocks. -/
theorem step_apply (x0 : Vec Ideal S400x1024 .f32) (x1 : Vec Ideal S1024x2000 .f32) (acc : Vec Ideal S400x2000 .f32)
    (p : Fin 400) (q : Fin 2000) :
    k0_pay2 x0 x1 acc (ix2 p q) = acc (ix2 p q) + ∑ k : Fin 1024, x0 (ix2 p k) * x1 (ix2 k q) := by
  unfold k0_pay2
  rw [shapeCast_self]
  refine (addf_apply _ _ _).trans ?_
  rw [product_apply]
  rfl

/-- The last step's stored block: the accumulator plus the bias row's entry of the column. -/
theorem last_apply (acc : Vec Ideal S400x2000 .f32) (row : Vec Ideal S1x2000 .f32) (p : Fin 400) (q : Fin 2000) :
    k0_pay3 acc row (ix2 p q) = acc (ix2 p q) + row (ix2 0 q) := by
  unfold k0_pay3
  rw [shapeCast_self]
  refine (addf_apply _ _ _).trans ?_
  congr 1
  exact broadcastTo_apply _ broadcasts_S1x2000_S400x2000 (ix2 p q) (ix2 0 q) (fun a => match a with
    | ⟨0, _⟩ => by show 0 = if (1 : Nat) = 1 then 0 else _; rw [if_pos rfl]
    | ⟨1, _⟩ => by show q.val = if (2000 : Nat) = 1 then 0 else q.val; rw [if_neg (by decide)])

end Cert.KernelIdeal.Body

end
-- ==== Proof.Pieces.lean ====
/-
  What each control case of the body leaves in the accumulator block and in the output block, as the body's stored
  values of what it loaded.

  The body has three cases.  At the first contraction step (case A) it stores the zero block into the accumulator,
  reads it back and stores the step's value over it: the accumulator ends at the step's value of the zero block.  At
  a middle step (case B) it stores the step's value of what the accumulator held.  At the last step (case C) it does
  the same and then stores, into the output block, the closing value of the new accumulator and the bias row.
-/
import proofs.«176241_j70317204570841_1_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

/-- Every store of the body starts at the block's origin. -/
theorem origin : (![0, 0] : Fin 2 → Nat) = fun _ => 0 := funext fun a => by fin_cases a <;> rfl

/-- A middle step leaves the accumulator at the step's value of what it held. -/
theorem acc_B (c : Dev nD) (i : grid0.Coords) (arg2 : Memref sig .tc .vmem S400x1024 .f32) (harg2 : arg2.IsWhole) (arg3 : Memref sig .tc .vmem S1024x2000 .f32) (harg3 : arg3.IsWhole) (arg4 : Memref sig .tc .vmem S1x2000 .f32) (harg4 : arg4.IsWhole) (arg5 : Memref sig .tc .vmem S400x2000 .f32) (harg5 : arg5.IsWhole) (arg6 : Memref sig .tc .vmem S400x2000 .f32) (harg6 : arg6.IsWhole) (hc0 : ¬cond0_0 i) (hc1 : ¬cond0_1 i)
    (x0 : Vec F S400x1024 .f32) (x1 : Vec F S1024x2000 .f32) (x2 : Vec F S1x2000 .f32) (xs0 : Vec F S400x2000 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero origin]
  simp only [View.readAt_eq_ld, harg2.read_unread, harg3.read_unread, harg6.read_unread, View.ld_unit_zero (S := S400x1024) origin, View.ld_unit_zero (S := S1024x2000) origin, View.ld_unit_zero (S := S400x2000) origin]

/-- The last step leaves the accumulator at the step's value of what it held, -/
theorem acc_C (c : Dev nD) (i : grid0.Coords) (arg2 : Memref sig .tc .vmem S400x1024 .f32) (harg2 : arg2.IsWhole) (arg3 : Memref sig .tc .vmem S1024x2000 .f32) (harg3 : arg3.IsWhole) (arg4 : Memref sig .tc .vmem S1x2000 .f32) (harg4 : arg4.IsWhole) (arg5 : Memref sig .tc .vmem S400x2000 .f32) (harg5 : arg5.IsWhole) (arg6 : Memref sig .tc .vmem S400x2000 .f32) (harg6 : arg6.IsWhole) (hc0 : ¬cond0_0 i) (hc1 : cond0_1 i)
    (x0 : Vec F S400x1024 .f32) (x1 : Vec F S1024x2000 .f32) (x2 : Vec F S1x2000 .f32) (xs0 : Vec F S400x2000 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero origin]
  simp only [View.readAt_eq_ld, harg2.read_unread, harg3.read_unread, harg6.read_unread, View.ld_unit_zero (S := S400x1024) origin, View.ld_unit_zero (S := S1024x2000) origin, View.ld_unit_zero (S := S400x2000) origin]

/-- and the output block at the closing value of that accumulator and the bias row. -/
theorem out_C (c : Dev nD) (i : grid0.Coords) (arg2 : Memref sig .tc .vmem S400x1024 .f32) (harg2 : arg2.IsWhole) (arg3 : Memref sig .tc .vmem S1024x2000 .f32) (harg3 : arg3.IsWhole) (arg4 : Memref sig .tc .vmem S1x2000 .f32) (harg4 : arg4.IsWhole) (arg5 : Memref sig .tc .vmem S400x2000 .f32) (harg5 : arg5.IsWhole) (arg6 : Memref sig .tc .vmem S400x2000 .f32) (harg6 : arg6.IsWhole) (hc0 : ¬cond0_0 i) (hc1 : cond0_1 i)
    (x0 : Vec F S400x1024 .f32) (x1 : Vec F S1024x2000 .f32) (x2 : Vec F S1x2000 .f32) (xs0 : Vec F S400x2000 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero origin]
  simp only [View.readAt_eq_ld, harg2.read_unread, harg3.read_unread, harg4.read_unread, harg6.read_unread, View.ld_unit_zero (S := S400x1024) origin, View.ld_unit_zero (S := S1024x2000) origin, View.ld_unit_zero (S := S1x2000) origin, View.ld_unit_zero (S := S400x2000) origin, View.readCov_unit_zero (S := S400x2000) _ origin]

/-- The first step leaves the accumulator at the step's value of the zero block. -/
theorem acc_A (c : Dev nD) (i : grid0.Coords) (arg2 : Memref sig .tc .vmem S400x1024 .f32) (harg2 : arg2.IsWhole) (arg3 : Memref sig .tc .vmem S1024x2000 .f32) (harg3 : arg3.IsWhole) (arg4 : Memref sig .tc .vmem S1x2000 .f32) (harg4 : arg4.IsWhole) (arg5 : Memref sig .tc .vmem S400x2000 .f32) (harg5 : arg5.IsWhole) (arg6 : Memref sig .tc .vmem S400x2000 .f32) (harg6 : arg6.IsWhole) (hc0 : cond0_0 i) (hc1 : ¬cond0_1 i)
    (x0 : Vec F S400x1024 .f32) (x1 : Vec F S1024x2000 .f32) (x2 : Vec F S1x2000 .f32) :
    sout0_A_0 c i arg2 harg2 arg3 harg3 arg4 harg4 arg5 harg5 arg6 harg6 hc0 hc1 x0 x1 x2 = k0_pay2 x0 x1 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S400x2000) origin, View.readCov_unit_zero (S := S400x2000) _ origin]
  simp only [View.readAt_eq_ld, harg2.read_unread, harg3.read_unread, View.ld_unit_zero (S := S400x1024) origin, View.ld_unit_zero (S := S1024x2000) origin, View.ld_unit_zero (S := S400x2000) origin, View.readCov_unit_zero (S := S400x2000) _ origin]

end Cert.KernelIdeal.Body

end
-- ==== Proof.Blocks.lean ====
/-
  The blocks the body is handed at a grid point, read at an index of the whole arrays.

  The grid has 5 × 8 points; point `t` is row block `t / 8`, contraction step `t % 8`.  The weights' block at `t`
  is rows `400 · (t / 8) …`, columns `1024 · (t % 8) …` of the weights; the other matrix's block is its rows
  `1024 · (t % 8) …`, all columns; the bias block is the whole one-row array, which the host made from the bias
  vector by adding a unit axis in front.
-/
import proofs.«176241_j70317204570841_1_alg».proof.Proof.Gen.KernelIdeal.Frame.Runs
import Idealize.ShloMosaic.Lib.Pipeline.Value
import Idealize.ShloMosaic.Lib.ValueIdx
import Idealize.ShloMosaic.Lib.StableHlo.Run

noncomputable section

namespace Cert.KernelIdeal.Body

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- Where each window's block lies, as a function of the point: decided over the forty points. -/
theorem index_facts : ∀ t : Fin cfg0.N,
    win0_0.index t 0 = t.val / 8 ∧ win0_0.index t 1 = t.val % 8 ∧ win0_1.index t 0 = t.val % 8 ∧ win0_1.index t 1 = 0
    ∧ win0_2.index t 0 = 0 ∧ win0_2.index t 1 = 0 ∧ win0_3.index t 0 = t.val / 8 ∧ win0_3.index t 1 = 0 :=
  (by decide +kernel : ∀ t : Fin grid0.N,
    win0_0.index t 0 = t.val / 8 ∧ win0_0.index t 1 = t.val % 8 ∧ win0_1.index t 0 = t.val % 8 ∧ win0_1.index t 1 = 0
    ∧ win0_2.index t 0 = 0 ∧ win0_2.index t 1 = 0 ∧ win0_3.index t 0 = t.val / 8 ∧ win0_3.index t 1 = 0)

/-- The three input blocks at a point and the three arrays they are cut from, at their literal shapes. -/
abbrev wblk (c : Dev nD) (t : Fin cfg0.N) : Vec F S400x1024 .f32 := iblk m c 0 t
abbrev xblk (c : Dev nD) (t : Fin cfg0.N) : Vec F S1024x2000 .f32 := iblk m c 1 t
abbrev bblk (c : Dev nD) (t : Fin cfg0.N) : Vec F S1x2000 .f32 := iblk m c 2 t
abbrev warr (c : Dev nD) : Vec F S2000x8192 .f32 := V m c main_arg0
abbrev xarr (c : Dev nD) : Vec F S8192x2000 .f32 := V m c main_arg2
abbrev barr (c : Dev nD) : Vec F S1x2000 .f32 := V m c main_v0

/-- The row block a point works on. -/
def blockRow (t : Fin cfg0.N) : Fin 5 :=
  ⟨t.val / 8, by have := t.isLt; have hN : cfg0.N = 40 := N_0; omega⟩

/-- Row `p` of row block `r`, as a row of the whole arrays. -/
def rowOf (r : Fin 5) (p : Fin 400) : Fin 2000 :=
  ⟨400 * r.val + p.val, by have := r.isLt; have := p.isLt; omega⟩

/-- Contraction coordinate `k` of stretch `s`, as a coordinate of the whole contraction axis. -/
def conAt (s : ℕ) (k : Fin 1024) : Fin 8192 :=
  ⟨1024 * (s % 8) + k.val, by have := k.isLt; have := Nat.mod_lt s (show 0 < 8 by decide); omega⟩

theorem wblk_apply (c : Dev nD) (t : Fin cfg0.N) (p : Fin 400) (k : Fin 1024) :
    wblk m c t (ix2 p k) = warr m c (ix2 (rowOf (blockRow t) p) (conAt t.val k)) := by
  obtain ⟨h00, h01, -⟩ := index_facts t
  show iblk m c 0 t (ix2 p k) = _
  unfold iblk
  rw [View.read_apply]
  show V m c main_arg0 _ = V m c main_arg0 _
  congr 1
  funext a
  apply Fin.ext
  match a with
  | ⟨0, _⟩ => show win0_0.index t 0 * 400 + 1 * p.val = 400 * (t.val / 8) + p.val; rw [h00]; omega
  | ⟨1, _⟩ => show win0_0.index t 1 * 1024 + 1 * k.val = 1024 * (t.val % 8) + k.val; rw [h01]; omega

theorem xblk_apply (c : Dev nD) (t : Fin cfg0.N) (k : Fin 1024) (q : Fin 2000) :
    xblk m c t (ix2 k q) = xarr m c (ix2 (conAt t.val k) q) := by
  obtain ⟨-, -, h10, h11, -⟩ := index_facts t
  show iblk m c 1 t (ix2 k q) = _
  unfold iblk
  rw [View.read_apply]
  show V m c main_arg2 _ = V m c main_arg2 _
  congr 1
  funext a
  apply Fin.ext
  match a with
  | ⟨0, _⟩ => show win0_1.index t 0 * 1024 + 1 * k.val = 1024 * (t.val % 8) + k.val; rw [h10]; omega
  | ⟨1, _⟩ => show win0_1.index t 1 * 2000 + 1 * q.val = q.val; rw [h11]; omega

theorem bblk_apply (c : Dev nD) (t : Fin cfg0.N) (q : Fin 2000) :
    bblk m c t (ix2 0 q) = barr m c (ix2 0 q) := by
  obtain ⟨-, -, -, -, h20, h21, -⟩ := index_facts t
  show iblk m c 2 t (ix2 0 q) = _
  unfold iblk
  rw [View.read_apply]
  show V m c main_v0 _ = V m c main_v0 _
  congr 1
  funext a
  apply Fin.ext
  match a with
  | ⟨0, _⟩ => show win0_2.index t 0 * 1 + 1 * 0 = 0; rw [h20]
  | ⟨1, _⟩ => show win0_2.index t 1 * 2000 + 1 * q.val = q.val; rw [h21]; omega

/-- The one-row array the region finds is the bias vector with a unit axis in front. -/
theorem barr_eq (c : Dev nD) :
    barr m c = shapeCast S1x2000 (m ((c : Thread nD τ).loc main_arg1)) shapeCasts_S2000_S1x2000 := by
  show V m c main_v0 = _
  dsimp only [Gen.V, Gen.hostOps0]
  after_results
  rfl

theorem barr_apply (c : Dev nD) (q : Fin 2000) :
    barr m c (ix2 0 q) = m ((c : Thread nD τ).loc main_arg1) (ix1 q) := by
  rw [barr_eq]
  refine (shapeCast_addUnit_apply ![2000] _ shapeCasts_S2000_S1x2000 (ix2 0 q)).trans ?_
  congr 1
  funext a
  match a with
  | ⟨0, _⟩ => rfl

theorem warr_eq (c : Dev nD) : warr m c = m ((c : Thread nD τ).loc main_arg0) := V_main_arg0 m c
theorem xarr_eq (c : Dev nD) : xarr m c = m ((c : Thread nD τ).loc main_arg2) := V_main_arg2 m c

end Cert.KernelIdeal.Body

end
-- ==== Proof.Fold.lean ====
/-
  The accumulator after every grid point, the output block at a flushing point, and from them the whole result array.

  Within row block `r` the grid visits the eight contraction stretches in order.  The accumulator is reset to zero at
  the first stretch and each stretch adds its inner product, so after stretch `j` it holds zero plus the sum of the
  inner products of stretches `0 … j`.  After the eighth stretch the output block is that sum plus the bias entry of
  the column, and the eight stretches together are the whole contraction axis: the block is the restriction of
  `Cert.Spec.G` of the arrays the region finds.  The five flushing points' blocks tile the rows.
-/
import proofs.«176241_j70317204570841_1_alg».proof.Proof.Gen.KernelIdeal.Value
import proofs.«176241_j70317204570841_1_alg».proof.Proof.Spec
import proofs.«176241_j70317204570841_1_alg».proof.Proof.Payload
import proofs.«176241_j70317204570841_1_alg».proof.Proof.Pieces
import proofs.«176241_j70317204570841_1_alg».proof.Proof.Blocks

set_option maxRecDepth 16384

noncomputable section

open scoped BigOperators

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The inner product over contraction stretch `s % 8`, for row block `r`, at an index of the block. -/
def stretch (c : Dev nD) (r : Fin 5) (s : ℕ) : S400x2000.Idx → EReal := fun j =>
  ∑ k : Fin 1024, warr m c (ix2 (rowOf r (j 0)) (conAt s k)) * xarr m c (ix2 (conAt s k) (j 1))

/-- One step at point `t` adds the point's stretch to whatever the accumulator held. -/
theorem step_at (c : Dev nD) (t : Fin cfg0.N) (acc : Vec Ideal S400x2000 .f32) (j : S400x2000.Idx) :
    k0_pay2 (wblk m c t) (xblk m c t) acc j = acc j + stretch m c (blockRow t) t.val j := by
  obtain ⟨p, q, rfl⟩ : ∃ (p : Fin 400) (q : Fin 2000), j = ix2 p q := ⟨j 0, j 1, eq_ix2 j⟩
  refine (step_apply (wblk m c t) (xblk m c t) acc p q).trans ?_
  congr 1
  refine Finset.sum_congr rfl fun k _ => ?_
  rw [wblk_apply, xblk_apply]

/-- At the first stretch of a row block the accumulator is left at zero plus the stretch, whatever it held. -/
theorem scAt_first (c : Dev nD) (n : ℕ) (hb : n < cfg0.N) (h0 : n % 8 = 0) (acc : Vec Ideal S400x2000 .f32) (j : S400x2000.Idx) :
    Value.scAt0_0 m c n hb acc j = 0 + stretch m c (blockRow ⟨n, hb⟩) n j := by
  have h1 : ¬n % 8 = 7 := by omega
  unfold Value.scAt0_0
  rw [dif_pos h0, dif_neg h1]
  refine (congrFun (acc_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (wblk m c ⟨n, hb⟩) (xblk m c ⟨n, hb⟩) (bblk m c ⟨n, hb⟩)) j).trans ?_
  refine (step_at m c ⟨n, hb⟩ (k0_pay1 (F := Ideal)) j).trans ?_
  rw [reset_apply]

/-- At a later stretch the accumulator is left at what it held plus the stretch. -/
theorem scAt_next (c : Dev nD) (n : ℕ) (hb : n < cfg0.N) (h0 : ¬n % 8 = 0) (acc : Vec Ideal S400x2000 .f32) (j : S400x2000.Idx) :
    Value.scAt0_0 m c n hb acc j = acc j + stretch m c (blockRow ⟨n, hb⟩) n j := by
  unfold Value.scAt0_0
  rw [dif_neg h0]
  by_cases h1 : n % 8 = 7
  · rw [dif_pos h1]
    refine (congrFun (acc_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (wblk m c ⟨n, hb⟩) (xblk m c ⟨n, hb⟩) (bblk m c ⟨n, hb⟩) acc) j).trans ?_
    exact step_at m c ⟨n, hb⟩ acc j
  · rw [dif_neg h1]
    refine (congrFun (acc_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (wblk m c ⟨n, hb⟩) (xblk m c ⟨n, hb⟩) (bblk m c ⟨n, hb⟩) acc) j).trans ?_
    exact step_at m c ⟨n, hb⟩ acc j

/-- THE ACCUMULATOR after point `t`: zero plus the stretches of the row block's points up to `t`. -/
theorem acc_after (c : Dev nD) (t : Fin cfg0.N) (j : S400x2000.Idx) :
    (outsAt0 m c t.val t.isLt).2 j
      = 0 + ∑ s ∈ Finset.range (t.val % 8 + 1), stretch m c (blockRow t) (8 * (t.val / 8) + s) j := by
  have hN : cfg0.N = 40 := N_0
  have ht := t.isLt
  rw [Value.soutsAt0_0_eq m c t]
  refine Pipeline.accAt_add_apply (ι := S400x2000.Idx) (β := EReal)
    (fun n h => Value.scAt0_0 m c n h (VS0_0.read (Elt Ideal) VS0_0.junk)) (Value.scAt0_0 m c)
    (fun _ => 0) (fun n => stretch m c (blockRow t) n) (8 * (t.val / 8)) 7 ?_ ?_ (t.val % 8) (by omega) _ j
  · intro h i
    have e : blockRow ⟨8 * (t.val / 8), h⟩ = blockRow t := Fin.ext (by show 8 * (t.val / 8) / 8 = t.val / 8; omega)
    rw [scAt_first m c _ h (by omega) _ i, e]
  · intro n h acc i h1 h2
    have e : blockRow ⟨n, h⟩ = blockRow t := Fin.ext (by show n / 8 = t.val / 8; omega)
    rw [scAt_next m c n h (by omega) acc i, e]

/-- THE OUTPUT BLOCK at a flushing point: the accumulator after the eighth stretch plus the bias entry of the column. -/
theorem out_at (c : Dev nD) (t : Fin cfg0.N) (h7 : t.val % 8 = 7) (j : S400x2000.Idx) :
    (outsAt0 m c t.val t.isLt).1 j
      = (0 + ∑ s ∈ Finset.range 8, stretch m c (blockRow t) (8 * (t.val / 8) + s) j)
        + m ((c : Thread nD τ).loc main_arg1) (ix1 (j 1)) := by
  have h0 : ¬t.val % 8 = 0 := by omega
  have hacc : (outsAt0 m c t.val t.isLt).2
      = k0_pay2 (wblk m c t) (xblk m c t) (outsAt0 m c (t.val - 1) (Nat.lt_of_le_of_lt (Nat.sub_le _ _) t.isLt)).2 := by
    rw [outsAt0_C m c t h0 h7]
    dsimp only
    exact acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (wblk m c t) (xblk m c t) (bblk m c t) (outsAt0 m c (t.val - 1) (Nat.lt_of_le_of_lt (Nat.sub_le _ _) t.isLt)).2
  have hout : (outsAt0 m c t.val t.isLt).1
      = k0_pay3 (k0_pay2 (wblk m c t) (xblk m c t) (outsAt0 m c (t.val - 1) (Nat.lt_of_le_of_lt (Nat.sub_le _ _) t.isLt)).2) (bblk m c t) := by
    rw [outsAt0_C m c t h0 h7]
    dsimp only
    exact out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (wblk m c t) (xblk m c t) (bblk m c t) (outsAt0 m c (t.val - 1) (Nat.lt_of_le_of_lt (Nat.sub_le _ _) t.isLt)).2
  rw [hout, ← hacc]
  obtain ⟨p, q, rfl⟩ : ∃ (p : Fin 400) (q : Fin 2000), j = ix2 p q := ⟨j 0, j 1, eq_ix2 j⟩
  refine (last_apply _ _ p q).trans ?_
  rw [acc_after m c t (ix2 p q), h7, bblk_apply, barr_apply]

/-- Where the output's block at point `t` lies in the result array. -/
theorem mem_out_blk (t : Fin cfg0.N) (i : S2000x2000.Idx) :
    i ∈ ((cfg0.win 3).blk t).view.set ↔ ∀ a : Fin 2, win0_3.index t a * S400x2000.size a ≤ (i a).val ∧ (i a).val < win0_3.index t a * S400x2000.size a + S400x2000.size a := by
  show i ∈ ((View.whole main_v1).slice (win0_3.rect t)).set ↔ _
  rw [View.set_slice_whole, Rect.mem_set_unit]
  exact Iff.rfl

/-- WHAT A FLUSHING POINT WRITES BACK is its block of `G` of the arrays the region finds. -/
theorem flushed_eq (c : Dev nD) (t : Fin cfg0.N) (hf : (cfg0.win 3).flush t = true) :
    (dats m 0 c).flushed 3 t = ((cfg0.win 3).blk t).view.read (Elt Ideal)
      (Cert.Spec.G (warr m c) (m ((c : Thread nD τ).loc main_arg1)) (xarr m c)) := by
  have h7 : t.val % 8 = 7 := (flush0_3 t).mp hf
  obtain ⟨-, -, -, -, -, -, h30, h31⟩ := index_facts t
  rw [Value.flushed3]
  funext j
  show (outsAt0 m c t.val t.isLt).1 j = Cert.Spec.G (warr m c) (m ((c : Thread nD τ).loc main_arg1)) (xarr m c) (((cfg0.win 3).blk t).view.emb j)
  have hemb : ((cfg0.win 3).blk t).view.emb j = ix2 (rowOf (blockRow t) (j 0)) (j 1) := by
    funext a
    apply Fin.ext
    match a with
    | ⟨0, _⟩ => show win0_3.index t 0 * 400 + 1 * (j 0).val = 400 * (t.val / 8) + (j 0).val; rw [h30]; omega
    | ⟨1, _⟩ => show win0_3.index t 1 * 2000 + 1 * (j 1).val = (j 1).val; rw [h31]; omega
  rw [hemb]
  refine (out_at m c t h7 j).trans ?_
  unfold Cert.Spec.G
  rw [zero_add, Cert.Spec.sum_split, Cert.Spec.sum_range_eight]
  congr 1
  refine Finset.sum_congr rfl fun s _ => ?_
  unfold stretch
  refine Finset.sum_congr rfl fun k _ => ?_
  have e : conAt (8 * (t.val / 8) + s.val) k = Cert.Spec.kAt s k :=
    Fin.ext (by show 1024 * ((8 * (t.val / 8) + s.val) % 8) + k.val = 1024 * s.val + k.val; have := s.isLt; omega)
  rw [e]

/-- Every index of the result array is in the block of the flushing point of its row block. -/
theorem cover (i : S2000x2000.Idx) :
    ∃ t : Fin cfg0.N, (cfg0.win 3).flush t = true ∧ i ∈ ((cfg0.win 3).blk t).view.set := by
  have hi0 : (i 0).val < 2000 := (i 0).isLt
  have hi1 : (i 1).val < 2000 := (i 1).isLt
  have hN : cfg0.N = 40 := N_0
  have ht : 8 * ((i 0).val / 400) + 7 < cfg0.N := by omega
  obtain ⟨-, -, -, -, -, -, h30, h31⟩ := index_facts ⟨8 * ((i 0).val / 400) + 7, ht⟩
  refine ⟨⟨8 * ((i 0).val / 400) + 7, ht⟩, (flush0_3 _).mpr (by show (8 * ((i 0).val / 400) + 7) % 8 = 7; omega), ?_⟩
  rw [mem_out_blk]
  intro a
  match a with
  | ⟨0, _⟩ =>
    show win0_3.index ⟨8 * ((i 0).val / 400) + 7, ht⟩ 0 * 400 ≤ (i 0).val ∧ (i 0).val < win0_3.index ⟨8 * ((i 0).val / 400) + 7, ht⟩ 0 * 400 + 400
    rw [h30]
    show (8 * ((i 0).val / 400) + 7) / 8 * 400 ≤ (i 0).val ∧ (i 0).val < (8 * ((i 0).val / 400) + 7) / 8 * 400 + 400
    omega
  | ⟨1, _⟩ =>
    show win0_3.index ⟨8 * ((i 0).val / 400) + 7, ht⟩ 1 * 2000 ≤ (i 1).val ∧ (i 1).val < win0_3.index ⟨8 * ((i 0).val / 400) + 7, ht⟩ 1 * 2000 + 2000
    rw [h31]
    omega

/-- THE RESULT ARRAY after the run is `G` of the arguments as launched. -/
theorem final (c : Dev nD) :
    (dats m 0 c).arrAt 3 cfg0.N
      = Cert.Spec.G (m ((c : Thread nD τ).loc main_arg0)) (m ((c : Thread nD τ).loc main_arg1)) (m ((c : Thread nD τ).loc main_arg2)) := by
  rw [← warr_eq m c, ← xarr_eq m c]
  exact (dats m 0 c).arrAt_eq_of_cover 3 _ (flushed_eq m c) cover

/-- The kernel's run, read: the result array at `G` of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1)
        = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Body

end
-- ==== Proof.Ref.lean ====
/-
  The reference, read at an index: the product of the weights with the other matrix, then the bias vector laid along
  the last axis (first as a one-row array, then repeated down the rows) and added.  Index by index this is the
  function `Cert.Spec.G` of the three argument arrays.
-/
import proofs.«176241_j70317204570841_1_alg».proof.Proof.Gen.ReferenceIdeal.Read
import proofs.«176241_j70317204570841_1_alg».proof.Proof.Spec

noncomputable section

open scoped BigOperators

namespace Cert.ReferenceIdeal.RefValue

open Cert.ReferenceIdeal Cert.ReferenceIdeal.Gen Idealize.ShloMosaic Idealize.ShloMosaic.ValueIdx

/-- The reference's last stage is `G` of its arguments. -/
theorem result_eq (x0 : (⟨S2000x8192, .f32⟩ : BufTy).Contents (Elt Ideal)) (x1 : (⟨S2000, .f32⟩ : BufTy).Contents (Elt Ideal))
    (x2 : (⟨S8192x2000, .f32⟩ : BufTy).Contents (Elt Ideal)) :
    Read.val_main_v3 (F := Ideal) x0 x1 x2 = Cert.Spec.G x0 x1 x2 := by
  funext i
  rw [Read.val_main_v3_apply, Read.val_main_v0_apply, Read.val_main_v2_apply, Read.val_main_v1_apply]
  unfold Cert.Spec.G
  show (∑ k : Fin 8192, x0 (Read.lidx_main_v0 i k) * x2 (Read.ridx_main_v0 i k)) + x1 (Read.idx_main_v1 (Read.idx_main_v2 i)) = _
  have el : ∀ k : Fin 8192, Read.lidx_main_v0 i k = ix2 (i 0) k := fun k => funext fun a => by
    match a with
    | ⟨0, _⟩ => rfl
    | ⟨1, _⟩ => rfl
  have er : ∀ k : Fin 8192, Read.ridx_main_v0 i k = ix2 k (i 1) := fun k => funext fun a => by
    match a with
    | ⟨0, _⟩ => rfl
    | ⟨1, _⟩ => rfl
  have eb : Read.idx_main_v1 (Read.idx_main_v2 i) = ix1 (i 1) := funext fun a => by
    match a with
    | ⟨0, _⟩ => rfl
  simp only [el, er, eb]
  rfl

end Cert.ReferenceIdeal.RefValue

end
-- ==== Proof.lean ====
/-
  The kernel computes `weight · x + bias` block by block: for each of five row blocks of 400 rows it walks the
  contraction axis in eight stretches of 1024, keeping a 400 × 2000 accumulator that it zeroes at the first stretch
  and to which every stretch adds the product of the stretch's blocks; after the last stretch it writes the
  accumulator plus the bias row (the bias along the last axis) to the result.  The reference is one product over
  the whole contraction axis plus the bias broadcast along the last axis.

  Read on the extended reals, a change of float format is the identity and every sum is an exact sum, so the kernel's
  entry at row `r`, column `c` is `0 + Σ_{s<8} Σ_{k<1024} w r (1024 s + k) · x (1024 s + k) c + b c` and the
  reference's is `Σ_{K<8192} w r K · x K c + b c`.  They agree because addition on the extended reals is commutative
  and associative (a sum over 8192 coordinates is the sum over the eight stretches of the sums inside them) and zero is
  neutral; no cancellation or distributivity is used, so finiteness of the inputs is not needed.

  The modules: `Spec` states the common function `G` and the regrouping of the sum; `Payload` reads the body's three
  stored values at an index; `Pieces` says what each control case of the body leaves in the accumulator and the
  output block; `Blocks` reads the blocks the body is handed as entries of the whole arrays; `Fold` follows the
  accumulator through a row block's eight points and concludes that the result array is `G` of the arguments;
  `Ref` reads the reference's stages at an index and finds the same `G`.  The three frames are the generated ones
  (the reference's is its generated run with the result dropped), and the idealization rewrote nothing.
-/
import proofs.«176241_j70317204570841_1_alg».proof.Defs
import proofs.«176241_j70317204570841_1_alg».proof.Proof.Gen.Kernel
import proofs.«176241_j70317204570841_1_alg».proof.Proof.Gen.Kernel.Skeleton
import proofs.«176241_j70317204570841_1_alg».proof.Proof.Gen.Kernel.Launch
import proofs.«176241_j70317204570841_1_alg».proof.Proof.Gen.Kernel.Points
import proofs.«176241_j70317204570841_1_alg».proof.Proof.Gen.Kernel.Frame
import proofs.«176241_j70317204570841_1_alg».proof.Proof.Gen.KernelIdeal
import proofs.«176241_j70317204570841_1_alg».proof.Proof.Gen.KernelIdeal.Skeleton
import proofs.«176241_j70317204570841_1_alg».proof.Proof.Gen.KernelIdeal.Launch
import proofs.«176241_j70317204570841_1_alg».proof.Proof.Gen.KernelIdeal.Points
import proofs.«176241_j70317204570841_1_alg».proof.Proof.Gen.KernelIdeal.Frame
import proofs.«176241_j70317204570841_1_alg».proof.Proof.Gen.ReferenceIdeal
import proofs.«176241_j70317204570841_1_alg».proof.Proof.Gen.Pre_finite_inputs
import proofs.«176241_j70317204570841_1_alg».proof.Proof.Gen.KernelIdeal.Value
import proofs.«176241_j70317204570841_1_alg».proof.Proof.Gen.ReferenceIdeal.Run
import proofs.«176241_j70317204570841_1_alg».proof.Proof.Gen.ReferenceIdeal.Read
import proofs.«176241_j70317204570841_1_alg».proof.Proof.Fold
import proofs.«176241_j70317204570841_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `G` of arguments that agree. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
